-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x2 : Shape := ⟨3, ![128, 4096, 2]⟩
abbrev S128x4096 : Shape := ⟨2, ![128, 4096]⟩
abbrev S64x2 : Shape := ⟨2, ![64, 2]⟩
abbrev S_ : Shape := ⟨0, ![]⟩

class Facts : Prop where
  bcast_S_S128x4096x2 : S_.BroadcastsInDim S128x4096x2 (![] : Fin 0 → Fin S128x4096x2.rank)
  reducesTo_S128x4096x2_S_d0_1_2 : S128x4096x2.ReducesTo [0, 1, 2] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S64x2 : S_.BroadcastsInDim S64x2 (![] : Fin 0 → Fin S64x2.rank)
  reducesTo_S64x2_S_d0_1 : S64x2.ReducesTo [0, 1] S_

variable [Facts]

def fn_part1 {F : FTy → Type} [FloatOps F] (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  main_v18

def fn {F : FTy → Type} [FloatOps F] (main_arg0 : FVec F S128x4096x2 .f32) (main_arg1 : FVec F S128x4096 .f32) (main_arg2 : FVec F S64x2 .f32) (main_arg3 : FVec F S64x2 .f32) : IVec S_ 1 :=
  let main_v0 : FVec F S128x4096x2 .f32 := Host.absf main_arg0
  let main_cst : FVec F S_ .f32 := constant S_ .f32 0x7F800000#32
  let main_v1 : FVec F S128x4096x2 .f32 := broadcastInDim S128x4096x2 ![] bcast_S_S128x4096x2 main_cst
  let main_v2 : IVec S128x4096x2 1 := cmpf .olt main_v0 main_v1
  let main_c : IVec S_ 1 := constantI S_ 1 1#1
  let main_v3 : IVec S_ 1 := (fun x v => Host.reduce IntOp.andi x v reducesTo_S128x4096x2_S_d0_1_2 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_v13 main_v16
-- ==== Kernel.lean ====
abbrev S128x4096x2 : Shape := ⟨3, ![128, 4096, 2]⟩
abbrev S128x4096 : Shape := ⟨2, ![128, 4096]⟩
abbrev S64x2 : Shape := ⟨2, ![64, 2]⟩
abbrev S128x64 : Shape := ⟨2, ![128, 64]⟩
abbrev S64x128x2 : Shape := ⟨3, ![64, 128, 2]⟩
abbrev S64x128 : Shape := ⟨2, ![64, 128]⟩
abbrev S64x64 : Shape := ⟨2, ![64, 64]⟩
abbrev S64x64x128 : Shape := ⟨3, ![64, 64, 128]⟩
abbrev S64x1 : Shape := ⟨2, ![64, 1]⟩
abbrev S64 : Shape := ⟨1, ![64]⟩
abbrev S64x128x1 : Shape := ⟨3, ![64, 128, 1]⟩
abbrev S1x64x1 : Shape := ⟨3, ![1, 64, 1]⟩
abbrev S64x1x128 : Shape := ⟨3, ![64, 1, 128]⟩

abbrev nBuf : Space → Nat
  | .hbm => 5
  | .vmem => 9
  | .smem => 0
  | _ => 0

abbrev bufTy : (tb : Table) → Fin (tcTables nBuf tb) → BufTy
  | .hbm, ⟨0, _⟩ => ⟨S128x4096x2, .f32⟩
  | .hbm, ⟨1, _⟩ => ⟨S128x4096, .f32⟩
  | .hbm, ⟨2, _⟩ => ⟨S64x2, .f32⟩
  | .hbm, ⟨3, _⟩ => ⟨S64x2, .f32⟩
  | .hbm, ⟨4, _⟩ => ⟨S128x64, .f32⟩
  | .local _ .vmem, ⟨0, _⟩ => ⟨S64x128x2, .f32⟩
  | .local _ .vmem, ⟨1, _⟩ => ⟨S64x128x2, .f32⟩
  | .local _ .vmem, ⟨2, _⟩ => ⟨S64x128, .f32⟩
  | .local _ .vmem, ⟨3, _⟩ => ⟨S64x128, .f32⟩
  | .local _ .vmem, ⟨4, _⟩ => ⟨S64x2, .f32⟩
  | .local _ .vmem, ⟨5, _⟩ => ⟨S64x2, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | _, _ => ⟨S128x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128x2_S64x128x2_0_0_0 : ∀ a, (![0, 0, 0] : Fin 3 → Nat) a + S64x128x2.size a ≤ S64x128x2.size a
  h_S64x128x2 : 0 < S64x128x2.numel
  inb_S64x128_S64x128_0_0 : ∀ a, (![0, 0] : Fin 2 → Nat) a + S64x128.size a ≤ S64x128.size a
  h_S64x128 : 0 < S64x128.numel
  inb_S64x2_S64x2_0_0 : ∀ a, (![0, 0] : Fin 2 → Nat) a + S64x2.size a ≤ S64x2.size a
  h_S64x2 : 0 < S64x2.numel
  slices_S64x2_o0_0_S64x1 : S64x2.Slices ![0, 0] S64x1
  shapeCasts_S64x1_S64 : S64x1.ShapeCasts S64
  slices_S64x128x2_o0_0_0_S64x128x1 : S64x128x2.Slices ![0, 0, 0] S64x128x1
  shapeCasts_S64x128x1_S64x128 : S64x128x1.ShapeCasts S64x128
  shapeCasts_S64_S1x64x1 : S64.ShapeCasts S1x64x1
  shapeCasts_S64x128_S64x1x128 : S64x128.ShapeCasts S64x1x128
  broadcasts_S1x64x1_S64x64x128 : S1x64x1.Broadcasts S64x64x128
  broadcasts_S64x1x128_S64x64x128 : S64x1x128.Broadcasts S64x64x128
  slices_S64x2_o0_1_S64x1 : S64x2.Slices ![0, 1] S64x1
  slices_S64x128x2_o0_0_1_S64x128x1 : S64x128x2.Slices ![0, 0, 1] S64x128x1
  reduces_S64x64x128_S64x64 : S64x64x128.Reduces [2] S64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x2.size a ≤ S128x4096x2.size a
  hwx0_0 : ∀ i : grid0.Coords, EltTy.bits .f32 = 32 ∨ (Rect.block (s := S128x4096x2) S64x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S128x4096.size a
  hwx0_1 : ∀ i : grid0.Coords, EltTy.bits .f32 = 32 ∨ (Rect.block (s := S128x4096) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2.size a ≤ S64x2.size a
  hwx0_3 : ∀ i : grid0.Coords, EltTy.bits .f32 = 32 ∨ (Rect.block (s := S64x2) S64x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S128x64.size a
  hwx0_4 : ∀ i : grid0.Coords, EltTy.bits .f32 = 32 ∨ (Rect.block (s := S128x64) S64x64.size (cc0_transform_4 i) (hinb0_4 i)).WholeWords (EltTy.packing .f32)

variable [Facts₀]

abbrev win0_0 : Pipeline.Window sig grid0 :=
  Pipeline.Window.ofSpec (Memref.whole main_arg0) S64x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x4096x2 : Shape := ⟨3, ![128, 4096, 2]⟩
abbrev S128x4096 : Shape := ⟨2, ![128, 4096]⟩
abbrev S64x2 : Shape := ⟨2, ![64, 2]⟩
abbrev S1x64x1x2 : Shape := ⟨4, ![1, 64, 1, 2]⟩
abbrev S128x1x4096x2 : Shape := ⟨4, ![128, 1, 4096, 2]⟩
abbrev S128x64x4096x2 : Shape := ⟨4, ![128, 64, 4096, 2]⟩
abbrev S_ : Shape := ⟨0, ![]⟩
abbrev S128x64x4096 : Shape := ⟨3, ![128, 64, 4096]⟩
abbrev S128x1x4096 : Shape := ⟨3, ![128, 1, 4096]⟩
abbrev S128x64 : Shape := ⟨2, ![128, 64]⟩

abbrev nBuf : Space → Nat
  | .hbm => 23
  | .vmem => 0
  | .smem => 0
  | _ => 0

abbrev bufTy : (tb : Table) → Fin (tcTables nBuf tb) → BufTy
  | .hbm, ⟨0, _⟩ => ⟨S128x4096x2, .f32⟩
  | .hbm, ⟨1, _⟩ => ⟨S128x4096, .f32⟩
  | .hbm, ⟨2, _⟩ => ⟨S64x2, .f32⟩
  | .hbm, ⟨3, _⟩ => ⟨S64x2, .f32⟩
  | .hbm, ⟨4, _⟩ => ⟨S1x64x1x2, .f32⟩
  | .hbm, ⟨5, _⟩ => ⟨S128x1x4096x2, .f32⟩
  | .hbm, ⟨6, _⟩ => ⟨S128x64x4096x2, .f32⟩
  | .hbm, ⟨7, _⟩ => ⟨S128x64x4096x2, .f32⟩
  | .hbm, ⟨8, _⟩ => ⟨S128x64x4096x2, .f32⟩
  | .hbm, ⟨9, _⟩ => ⟨S128x64x4096x2, .f32⟩
  | .hbm, ⟨10, _⟩ => ⟨S64x2, .f32⟩
  | .hbm, ⟨11, _⟩ => ⟨S1x64x1x2, .f32⟩
  | .hbm, ⟨12, _⟩ => ⟨S128x64x4096x2, .f32⟩
  | .hbm, ⟨13, _⟩ => ⟨S128x64x4096x2, .f32⟩
  | .hbm, ⟨14, _⟩ => ⟨S_, .f32⟩
  | .hbm, ⟨15, _⟩ => ⟨S128x64x4096, .f32⟩
  | .hbm, ⟨16, _⟩ => ⟨S128x64x4096, .f32⟩
  | .hbm, ⟨17, _⟩ => ⟨S128x64x4096, .f32⟩
  | .hbm, ⟨18, _⟩ => ⟨S128x1x4096, .f32⟩
  | .hbm, ⟨19, _⟩ => ⟨S128x64x4096, .f32⟩
  | .hbm, ⟨20, _⟩ => ⟨S128x64x4096, .f32⟩
  | .hbm, ⟨21, _⟩ => ⟨S_, .f32⟩
  | .hbm, ⟨22, _⟩ => ⟨S128x64, .f32⟩
  | _, _ => ⟨S128x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S64x2_S1x64x1x2_1_3 : S64x2.BroadcastsInDim S1x64x1x2 (![1, 3] : Fin 2 → Fin S1x64x1x2.rank)
  bcast_S128x4096x2_S128x1x4096x2_0_2_3 : S128x4096x2.BroadcastsInDim S128x1x4096x2 (![0, 2, 3] : Fin 3 → Fin S128x1x4096x2.rank)
  bcast_S1x64x1x2_S128x64x4096x2_0_1_2_3 : S1x64x1x2.BroadcastsInDim S128x64x4096x2 (![0, 1, 2, 3] : Fin 4 → Fin S128x64x4096x2.rank)
  bcast_S128x1x4096x2_S128x64x4096x2_0_1_2_3 : S128x1x4096x2.BroadcastsInDim S128x64x4096x2 (![0, 1, 2, 3] : Fin 4 → Fin S128x64x4096x2.rank)
  reducesTo_S128x64x4096x2_S128x64x4096_d3 : S128x64x4096x2.ReducesTo [3] S128x64x4096
  h_S_ : 0 < S_.numel
  bcast_S128x4096_S128x1x4096_0_2 : S128x4096.BroadcastsInDim S128x1x4096 (![0, 2] : Fin 2 → Fin S128x1x4096.rank)
  bcast_S128x1x4096_S128x64x4096_0_1_2 : S128x1x4096.BroadcastsInDim S128x64x4096 (![0, 1, 2] : Fin 3 → Fin S128x64x4096.rank)
  reducesTo_S128x64x4096_S128x64_d2 : S128x64x4096.ReducesTo [2] S128x64

variable [Facts₀]

class Facts : Prop extends Facts₀ where

variable [Facts]
-- ==== Proof.Weight.lean ====
/-
  The mathematics of the soft histogram, with no program in sight.

  For a sample `b`, a bin `k` and a point `p` the weight is
      exp (-( (c k 0 - x b p 0)² · (s k 0)² + (c k 1 - x b p 1)² · (s k 1)² )) · mask b p
  on the extended reals, and the result at `(b, k)` is the sum of the weights over all 4096 points.

  Two spellings of the weight are met later.  One writes the exponent as `0 - ((0 + d₀) + d₁)`; the other as the
  negation of `0 + ∑ over the two coordinates`.  Both are the weight above: adding zero changes nothing, `0 - y` is
  `-y`, and a sum over two coordinates is its two terms.  None of this needs the entries to be finite.

  Summing over the 4096 points is the same as summing 32 consecutive runs of 128 points: addition on the extended
  reals is commutative and associative, so the grouping is free.
-/
import Idealize.ShloMosaic.PureOps.Ideal
import Idealize.ShloMosaic.PureOps.Ideal.Laws
import Idealize.ShloMosaic.Lib.ValueIdx

noncomputable section

namespace Cert.SoftHist

open Idealize.ShloMosaic Idealize.ShloMosaic.ValueIdx

/-- One coordinate's share of the sharpened squared distance: `(c - x)² · s²`. -/
def sqd (c s x : EReal) : EReal := (c - x) * (c - x) * (s * s)

/-- The weight of one point for one bin: the exponential of minus the sharpened squared distance, times the mask. -/
def wt (c0 s0 x0 c1 s1 x1 mk : EReal) : EReal := Ideal.exp (-(sqd c0 s0 x0 + sqd c1 s1 x1)) * mk

/-- The exponent spelled `0 - ((0 + d₀) + d₁)`. -/
theorem wt_of_zero_sub (c0 s0 x0 c1 s1 x1 mk : EReal) :
    Ideal.exp (0 - ((0 + (c0 - x0) * (c0 - x0) * (s0 * s0)) + (c1 - x1) * (c1 - x1) * (s1 * s1))) * mk
      = wt c0 s0 x0 c1 s1 x1 mk := by
  unfold wt sqd
  rw [zero_add, sub_eq_add_neg, zero_add]

/-- The exponent spelled as minus `0 +` a sum over the two coordinates. -/
theorem wt_of_neg_sum (f : Fin 2 → EReal) (c0 s0 x0 c1 s1 x1 mk : EReal)
    (h0 : f 0 = (c0 - x0) * (c0 - x0) * (s0 * s0)) (h1 : f 1 = (c1 - x1) * (c1 - x1) * (s1 * s1)) :
    Ideal.exp (-(0 + ∑ k : Fin 2, f k)) * mk = wt c0 s0 x0 c1 s1 x1 mk := by
  unfold wt sqd
  rw [zero_add, Fin.sum_univ_two, h0, h1]

/-- A sum over 4096 points is the sum of 32 consecutive runs of 128. -/
theorem sum_runs {M : Type*} [AddCommMonoid M] (g : Fin 4096 → M) :
    ∑ r : Fin 32, ∑ q : Fin 128, g ⟨128 * r.val + q.val, by have := r.isLt; have := q.isLt; omega⟩
      = ∑ p : Fin 4096, g p := by
  rw [← Fintype.sum_prod_type']
  refine Fintype.sum_equiv (finProdFinEquiv : Fin 32 × Fin 128 ≃ Fin 4096) _ _ fun rq => ?_
  refine congrArg g (Fin.ext ?_)
  show 128 * rq.1.val + rq.2.val = rq.2.val + 128 * rq.1.val
  omega

/-- The result: at sample `b` and bin `k`, the sum of the weights over all points. -/
def G (x : FVec Ideal ⟨3, ![128, 4096, 2]⟩ .f32) (mk : FVec Ideal ⟨2, ![128, 4096]⟩ .f32)
    (c s : FVec Ideal ⟨2, ![64, 2]⟩ .f32) : FVec Ideal ⟨2, ![128, 64]⟩ .f32 :=
  fun i => ∑ p : Fin 4096,
    wt (c (ix2 (i 1) 0)) (s (ix2 (i 1) 0)) (x (ix3 (i 0) p 0)) (c (ix2 (i 1) 1)) (s (ix2 (i 1) 1)) (x (ix3 (i 0) p 1))
      (mk (ix2 (i 0) p))

end Cert.SoftHist

end
-- ==== Proof.Payloads.lean ====
/-
  The body's arithmetic read at an index, on the extended reals.

  A grid point holds a block of 64 samples by 128 points (two coordinates each), the matching block of the mask, and
  the two 64-by-2 tables of bin centres and sharpnesses.  From these the body forms, for sample `r`, bin `k` and
  point `q` of the block, the number `0 - ((0 + d₀) + d₁)` with `d_j = (c k j - x r q j)² · (s k j)²`; it then
  exponentiates, multiplies by the mask at `(r, q)`, sums over the 128 points of the block, and adds that to the
  running total it was handed.  Each table column and each coordinate plane reaches its place through a chain of
  re-layouts (take a column, drop the unit axis, add unit axes, repeat along the missing axes); read at an index every
  such chain is one entry of the table or the block.
-/
import proofs.«121354_j6545530159284_1_alg».proof.Proof.Gen.KernelIdeal.Skeleton
import proofs.«121354_j6545530159284_1_alg».proof.Proof.Weight
import Idealize.ShloMosaic.Lib.Pipeline.Value
import Idealize.ShloMosaic.Lib.ValueIdx
import Idealize.ShloMosaic.PureOps.Ideal.Laws

noncomputable section

namespace Cert.KernelIdeal.Bins

open Cert.KernelIdeal Cert.KernelIdeal.Gen Idealize.ShloMosaic Idealize.ShloMosaic.ValueIdx Cert.SoftHist

section Layout
variable {α : Type}

/-- Column `d` of a 64-by-2 table, as a vector of 64: entry `k` is the table at `(k, d)`. -/
theorem column_apply (d : Nat) (hd : d < 2) (tb : S64x2.Idx → α) (h1 : S64x2.Slices ![0, d] S64x1)
    (h2 : S64x1.ShapeCasts S64) (k : Fin 64) :
    shapeCast S64 (extractStridedSlice S64x1 ![0, d] tb h1) h2 (ix1 k) = tb (ix2 k ⟨d, hd⟩) := by
  refine (shapeCast_apply _ h2 (ix1 k) (ix2 k (0 : Fin 1)) ?_).trans ?_
  · rw [Shape.rowMajor_val_two, Shape.rowMajor_val_one]
    show k.val * 1 + 0 = k.val
    omega
  · exact extractStridedSlice_apply _ tb h1 (ix2 k (0 : Fin 1)) (ix2 k ⟨d, hd⟩) fun a => match a with
      | ⟨0, _⟩ => by show k.val = 0 + k.val; omega
      | ⟨1, _⟩ => by show d = d + 0; omega

/-- A vector over the 64 bins repeated along samples and points: at `(r, k, q)` it is the vector at `k`. -/
theorem perBin_apply (v : S64.Idx → α) (h3 : S64.ShapeCasts S1x64x1) (h4 : S1x64x1.Broadcasts S64x64x128)
    (r k : Fin 64) (q : Fin 128) :
    broadcastTo S64x64x128 (shapeCast S1x64x1 v h3) h4 (ix3 r k q) = v (ix1 k) := by
  refine (broadcastTo_apply _ h4 (ix3 r k q) (ix3 (0 : Fin 1) k (0 : Fin 1)) fun a => ?_).trans ?_
  · match a with
    | ⟨0, _⟩ => rfl
    | ⟨1, _⟩ => rfl
    | ⟨2, _⟩ => rfl
  · refine shapeCast_apply _ h3 (ix3 (0 : Fin 1) k (0 : Fin 1)) (ix1 k) ?_
    rw [Shape.rowMajor_val_one, Shape.rowMajor_val_three]
    show k.val = (0 * 64 + k.val) * 1 + 0
    omega

/-- A 64-by-128 plane (samples by points) repeated along the bins: at `(r, k, q)` it is the plane at `(r, q)`. -/
theorem perPoint_apply (p : S64x128.Idx → α) (h3 : S64x128.ShapeCasts S64x1x128) (h4 : S64x1x128.Broadcasts S64x64x128)
    (r k : Fin 64) (q : Fin 128) :
    broadcastTo S64x64x128 (shapeCast S64x1x128 p h3) h4 (ix3 r k q) = p (ix2 r q) := by
  refine (broadcastTo_apply _ h4 (ix3 r k q) (ix3 r (0 : Fin 1) q) fun a => ?_).trans ?_
  · match a with
    | ⟨0, _⟩ => rfl
    | ⟨1, _⟩ => rfl
    | ⟨2, _⟩ => rfl
  · refine shapeCast_apply _ h3 (ix3 r (0 : Fin 1) q) (ix2 r q) ?_
    rw [Shape.rowMajor_val_two, Shape.rowMajor_val_three]
    show r.val * 128 + q.val = (r.val * 1 + 0) * 128 + q.val
    omega

/-- Coordinate `d` of a block of points, as a 64-by-128 plane: entry `(r, q)` is the block at `(r, q, d)`. -/
theorem plane_apply (d : Nat) (hd : d < 2) (xb : S64x128x2.Idx → α) (h1 : S64x128x2.Slices ![0, 0, d] S64x128x1)
    (h2 : S64x128x1.ShapeCasts S64x128) (r : Fin 64) (q : Fin 128) :
    shapeCast S64x128 (extractStridedSlice S64x128x1 ![0, 0, d] xb h1) h2 (ix2 r q) = xb (ix3 r q ⟨d, hd⟩) := by
  refine (shapeCast_apply _ h2 (ix2 r q) (ix3 r q (0 : Fin 1)) ?_).trans ?_
  · rw [Shape.rowMajor_val_three, Shape.rowMajor_val_two]
    show (r.val * 128 + q.val) * 1 + 0 = r.val * 128 + q.val
    omega
  · exact extractStridedSlice_apply _ xb h1 (ix3 r q (0 : Fin 1)) (ix3 r q ⟨d, hd⟩) fun a => match a with
      | ⟨0, _⟩ => by show r.val = 0 + r.val; omega
      | ⟨1, _⟩ => by show q.val = 0 + q.val; omega
      | ⟨2, _⟩ => by show d = d + 0; omega

end Layout

/-- The exponent the body forms, at sample `r`, bin `k`, point `q` of the block. -/
theorem exponent_apply (xb : Vec Ideal S64x128x2 .f32) (cb sb : Vec Ideal S64x2 .f32) (r k : Fin 64) (q : Fin 128) :
    k0_pay3 (F := Ideal) xb cb sb (ix3 r k q)
      = 0 - ((0 + (cb (ix2 k 0) - xb (ix3 r q 0)) * (cb (ix2 k 0) - xb (ix3 r q 0)) * (sb (ix2 k 0) * sb (ix2 k 0)))
          + (cb (ix2 k 1) - xb (ix3 r q 1)) * (cb (ix2 k 1) - xb (ix3 r q 1)) * (sb (ix2 k 1) * sb (ix2 k 1))) := by
  unfold k0_pay3
  simp only [subf_apply, addf_apply, mulf_apply, broadcast_apply, perBin_apply, perPoint_apply,
    column_apply 0 (by decide), column_apply 1 (by decide), plane_apply 0 (by decide), plane_apply 1 (by decide)]
  show Ideal.ofBits .f32 0x00000000#32 - ((Ideal.ofBits .f32 0x00000000#32 + _) + _) = _
  rw [Ideal.ofBits_zero_f32]
  rfl

/-- A sum over the 128 points of the block, read at sample `r` and bin `k`. -/
theorem pointSum_apply (src : FVec Ideal S64x64x128 .f32) (acc : BitVec (FTy.bits .f32)) (h : S64x64x128.Reduces [2] S64x64)
    (hφ : FKind.Formats .f32) (hacc : acc = FKind.add.neutral .f32 hφ) (r k : Fin 64) :
    multiReduction .add [2] S64x64 src acc h hφ hacc (ix2 r k) = ∑ q : Fin 128, src (ix3 r k q) := by
  refine (Ideal.multiReduction_add_single src acc h hφ hacc (ix2 r k)).trans ?_
  refine Finset.sum_congr rfl fun q _ => congrArg src (funext fun a => Fin.ext ?_)
  match a with
  | ⟨0, _⟩ => rfl
  | ⟨1, _⟩ => rfl
  | ⟨2, _⟩ => rfl

/-- The value the running total is reset to: zero everywhere. -/
theorem reset_apply (i : S64x64.Idx) : k0_pay2 (F := Ideal) i = 0 := by
  unfold k0_pay2
  simp only [shapeCast_self, broadcast_apply]
  exact Ideal.ofBits_zero_f32

/-- ONE GRID POINT'S STEP: the running total at `(r, k)` grows by the block's 128 weights for that sample and bin. -/
theorem step_apply (xb : Vec Ideal S64x128x2 .f32) (mb : Vec Ideal S64x128 .f32) (cb sb : Vec Ideal S64x2 .f32)
    (acc : Vec Ideal S64x64 .f32) (r k : Fin 64) :
    k0_pay1 (F := Ideal) mb (k0_pay3 xb cb sb) acc (ix2 r k)
      = acc (ix2 r k) + ∑ q : Fin 128,
          wt (cb (ix2 k 0)) (sb (ix2 k 0)) (xb (ix3 r q 0)) (cb (ix2 k 1)) (sb (ix2 k 1)) (xb (ix3 r q 1)) (mb (ix2 r q)) := by
  unfold k0_pay1
  simp only [shapeCast_self]
  refine congrArg (acc (ix2 r k) + ·) ?_
  refine (pointSum_apply _ _ _ _ _ r k).trans (Finset.sum_congr rfl fun q _ => ?_)
  show Ideal.exp (k0_pay3 (F := Ideal) xb cb sb (ix3 r k q)) * _ = _
  rw [exponent_apply, perPoint_apply]
  exact wt_of_zero_sub _ _ _ _ _ _ _

end Cert.KernelIdeal.Bins

end
-- ==== Proof.Pieces.lean ====
/-
  What one run of the body leaves behind, as values.

  The body keeps a running total in a buffer of its own.  At the first point of a run of 32 it first stores zero
  there; at every point it reads the total, adds the block's contribution, stores the total back, reads it once more
  and stores that copy to the output block.  So after the body both the running total and the output block hold
  `step (total before)`, where `step` is the body's one arithmetic term and the total before is zero at a run's
  first point and what the previous point left otherwise.  Each statement below reads the stores the run recorded:
  the last store through the whole buffer decides its contents, and a load of the whole buffer after such a store
  returns what was stored.
-/
import proofs.«121354_j6545530159284_1_alg».proof.Proof.Gen.KernelIdeal.Frame
import Idealize.ShloMosaic.Lib.Pipeline.Value
import Idealize.ShloMosaic.Lib.Tactic

noncomputable section

namespace Cert.KernelIdeal.Bins

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Not a run's first point: the running total becomes the step of what it held. -/
theorem total_later (c : Dev nD) (i : grid0.Coords) (a2 : Memref sig .tc .vmem S64x128x2 .f32) (h2 : a2.IsWhole)
    (a3 : Memref sig .tc .vmem S64x128 .f32) (h3 : a3.IsWhole) (a4 : Memref sig .tc .vmem S64x2 .f32) (h4 : a4.IsWhole)
    (a5 : Memref sig .tc .vmem S64x2 .f32) (h5 : a5.IsWhole) (a6 : Memref sig .tc .vmem S64x64 .f32) (h6 : a6.IsWhole)
    (a7 : Memref sig .tc .vmem S64x64 .f32) (h7 : a7.IsWhole) (hc : ¬cond0_0 i)
    (x0 : Vec F S64x128x2 .f32) (x1 : Vec F S64x128 .f32) (x2 x3 : Vec F S64x2 .f32) (xs0 : Vec F S64x64 .f32) :
    sout0_B_0 c i a2 h2 a3 h3 a4 h4 a5 h5 a6 h6 a7 h7 hc x0 x1 x2 x3 xs0 = k0_pay1 x1 (k0_pay3 x0 x2 x3) xs0 := by
  unfold sout0_B_0
  rw [View.read_writes_eq_canon _ _ _ (scover0_B_0 c i a2 h2 a3 h3 a4 h4 a5 h5 a6 h6 a7 h7 hc x0 x1 x2 x3 xs0)]
  unfold kernelRun0_B
  dsimp only
  sl_unfold_words
  rw [View.canon_unit_zero hz2]
  simp only [View.readAt_eq_ld, h2.read_unread, h3.read_unread, h4.read_unread, h5.read_unread, h7.read_unread,
    View.ld_unit_zero (S := S64x128x2) hz3, View.ld_unit_zero (S := S64x128) hz2, View.ld_unit_zero (S := S64x2) hz2,
    View.ld_unit_zero (S := S64x64) hz2]

/-- Not a run's first point: the output block holds the same. -/
theorem block_later (c : Dev nD) (i : grid0.Coords) (a2 : Memref sig .tc .vmem S64x128x2 .f32) (h2 : a2.IsWhole)
    (a3 : Memref sig .tc .vmem S64x128 .f32) (h3 : a3.IsWhole) (a4 : Memref sig .tc .vmem S64x2 .f32) (h4 : a4.IsWhole)
    (a5 : Memref sig .tc .vmem S64x2 .f32) (h5 : a5.IsWhole) (a6 : Memref sig .tc .vmem S64x64 .f32) (h6 : a6.IsWhole)
    (a7 : Memref sig .tc .vmem S64x64 .f32) (h7 : a7.IsWhole) (hc : ¬cond0_0 i)
    (x0 : Vec F S64x128x2 .f32) (x1 : Vec F S64x128 .f32) (x2 x3 : Vec F S64x2 .f32) (xs0 : Vec F S64x64 .f32) :
    out0_B_4 c i a2 h2 a3 h3 a4 h4 a5 h5 a6 h6 a7 h7 hc x0 x1 x2 x3 xs0 = k0_pay1 x1 (k0_pay3 x0 x2 x3) xs0 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  sl_unfold_words
  rw [View.canon_unit_zero hz2, View.readCov_cons_toLoadRect]
  simp only [View.readAt_eq_ld, h2.read_unread, h3.read_unread, h4.read_unread, h5.read_unread, h7.read_unread,
    View.ld_unit_zero (S := S64x128x2) hz3, View.ld_unit_zero (S := S64x128) hz2, View.ld_unit_zero (S := S64x2) hz2,
    View.ld_unit_zero (S := S64x64) hz2]

/-- A run's first point: the running total becomes the step of zero. -/
theorem total_first (c : Dev nD) (i : grid0.Coords) (a2 : Memref sig .tc .vmem S64x128x2 .f32) (h2 : a2.IsWhole)
    (a3 : Memref sig .tc .vmem S64x128 .f32) (h3 : a3.IsWhole) (a4 : Memref sig .tc .vmem S64x2 .f32) (h4 : a4.IsWhole)
    (a5 : Memref sig .tc .vmem S64x2 .f32) (h5 : a5.IsWhole) (a6 : Memref sig .tc .vmem S64x64 .f32) (h6 : a6.IsWhole)
    (a7 : Memref sig .tc .vmem S64x64 .f32) (h7 : a7.IsWhole) (hc : cond0_0 i)
    (x0 : Vec F S64x128x2 .f32) (x1 : Vec F S64x128 .f32) (x2 x3 : Vec F S64x2 .f32) :
    sout0_A_0 c i a2 h2 a3 h3 a4 h4 a5 h5 a6 h6 a7 h7 hc x0 x1 x2 x3 = k0_pay1 x1 (k0_pay3 x0 x2 x3) k0_pay2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_cons_unit_zero (S := S64x64) hz2, View.readCov_unit_zero (S := S64x64) _ hz2]
  simp only [View.readAt_eq_ld, h2.read_unread, h3.read_unread, h4.read_unread, h5.read_unread, h7.read_unread,
    View.ld_unit_zero (S := S64x128x2) hz3, View.ld_unit_zero (S := S64x128) hz2, View.ld_unit_zero (S := S64x2) hz2,
    View.ld_unit_zero (S := S64x64) hz2]

/-- A run's first point: the output block holds the same. -/
theorem block_first (c : Dev nD) (i : grid0.Coords) (a2 : Memref sig .tc .vmem S64x128x2 .f32) (h2 : a2.IsWhole)
    (a3 : Memref sig .tc .vmem S64x128 .f32) (h3 : a3.IsWhole) (a4 : Memref sig .tc .vmem S64x2 .f32) (h4 : a4.IsWhole)
    (a5 : Memref sig .tc .vmem S64x2 .f32) (h5 : a5.IsWhole) (a6 : Memref sig .tc .vmem S64x64 .f32) (h6 : a6.IsWhole)
    (a7 : Memref sig .tc .vmem S64x64 .f32) (h7 : a7.IsWhole) (hc : cond0_0 i)
    (x0 : Vec F S64x128x2 .f32) (x1 : Vec F S64x128 .f32) (x2 x3 : Vec F S64x2 .f32) :
    out0_A_4 c i a2 h2 a3 h3 a4 h4 a5 h5 a6 h6 a7 h7 hc x0 x1 x2 x3 = k0_pay1 x1 (k0_pay3 x0 x2 x3) k0_pay2 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz2, View.readCov_cons_toLoadRect, View.readCov_unit_zero (S := S64x64) _ hz2]
  simp only [View.readAt_eq_ld, h2.read_unread, h3.read_unread, h4.read_unread, h5.read_unread, h7.read_unread,
    View.ld_unit_zero (S := S64x128x2) hz3, View.ld_unit_zero (S := S64x128) hz2, View.ld_unit_zero (S := S64x2) hz2,
    View.ld_unit_zero (S := S64x64) hz2]

end Cert.KernelIdeal.Bins

end
-- ==== Proof.Fold.lean ====
/-
  The kernel's result array is the sum of the weights.

  The grid has 64 points: point `n` works on samples `64·(n / 32) … 64·(n / 32) + 63` and points
  `128·(n % 32) … 128·(n % 32) + 127`, with the whole tables of centres and sharpnesses.  Its contribution to
  sample `r` of its block and bin `k` is the sum of the 128 weights of its points.  The running total is reset
  at the points divisible by 32 and grows by the point's contribution everywhere, so after point `n` it is zero plus
  the contributions of the points of the run so far; the output block always holds a copy.  The block is written back
  at the last point of each run (`n % 32 = 31`), to rows `64·(n / 32) …`: by then the total is the sum over all
  32 runs of 128 points, which is the sum over the 4096 points.  The two written blocks cover the 128 rows.
-/
import proofs.«121354_j6545530159284_1_alg».proof.Proof.Gen.KernelIdeal.Value
import proofs.«121354_j6545530159284_1_alg».proof.Proof.Payloads
import proofs.«121354_j6545530159284_1_alg».proof.Proof.Pieces
import proofs.«121354_j6545530159284_1_alg».proof.Proof.Weight
import Idealize.ShloMosaic.Lib.Pipeline.Value
import Idealize.ShloMosaic.Lib.ValueIdx

noncomputable section

namespace Cert.KernelIdeal.Bins

open Cert.KernelIdeal Cert.KernelIdeal.Gen Idealize.ShloMosaic Idealize.ShloMosaic.TcCoe Idealize.SL.Sem
open Idealize.ShloMosaic.ValueIdx Cert.SoftHist
open Idealize.ShloMosaic.Pipeline (Dat)

variable (m : (ℓ : Loc nD τ sig) → Buf (Elt Ideal) ℓ) (ρ : Dev nD → PrngReg)

/-! ## The arrays and the blocks, at their literal shapes -/

abbrev xarr (c : Dev nD) : Vec Ideal S128x4096x2 .f32 := V m c main_arg0
abbrev marr (c : Dev nD) : Vec Ideal S128x4096 .f32 := V m c main_arg1
abbrev carr (c : Dev nD) : Vec Ideal S64x2 .f32 := V m c main_arg2
abbrev sarr (c : Dev nD) : Vec Ideal S64x2 .f32 := V m c main_arg3
abbrev xblk (c : Dev nD) (t : Fin cfg0.N) : Vec Ideal S64x128x2 .f32 := iblk m c 0 t
abbrev mblk (c : Dev nD) (t : Fin cfg0.N) : Vec Ideal S64x128 .f32 := iblk m c 1 t
abbrev cblk (c : Dev nD) (t : Fin cfg0.N) : Vec Ideal S64x2 .f32 := iblk m c 2 t
abbrev sblk (c : Dev nD) (t : Fin cfg0.N) : Vec Ideal S64x2 .f32 := iblk m c 3 t

/-- Where each window's block sits, decided over the 64 points: samples move with `n / 32`, points with `n % 32`,
    the tables never move. -/
theorem where_blocks : ∀ t : Fin cfg0.N,
    win0_0.index t (0 : Fin 3) = t.val / 32 ∧ win0_0.index t (1 : Fin 3) = t.val % 32 ∧ win0_0.index t (2 : Fin 3) = 0
    ∧ win0_1.index t (0 : Fin 2) = t.val / 32 ∧ win0_1.index t (1 : Fin 2) = t.val % 32
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 32 ∧ win0_4.index t (1 : Fin 2) = 0 :=
  (by decide +kernel : ∀ t : Fin grid0.N, _)

/-- The block of points at point `t`, read in the array. -/
theorem xblk_apply (c : Dev nD) (t : Fin cfg0.N) (r : Fin 64) (q : Fin 128) (d : Fin 2)
    (hb : 64 * (t.val / 32) + r.val < 128) (hp : 128 * (t.val % 32) + q.val < 4096) :
    xblk m c t (ix3 r q d) = xarr m c (ix3 ⟨64 * (t.val / 32) + r.val, hb⟩ ⟨128 * (t.val % 32) + q.val, hp⟩ d) := by
  obtain ⟨e0, e1, e2, -⟩ := where_blocks t
  show V m c main_arg0 (((cfg0.win 0).blk t).view.emb (ix3 r q d)) = V m c main_arg0 _
  refine congrArg (V m c main_arg0) (funext fun a => Fin.ext ?_)
  match a with
  | ⟨0, _⟩ => show win0_0.index t (0 : Fin 3) * 64 + 1 * r.val = 64 * (t.val / 32) + r.val; omega
  | ⟨1, _⟩ => show win0_0.index t (1 : Fin 3) * 128 + 1 * q.val = 128 * (t.val % 32) + q.val; omega
  | ⟨2, _⟩ => show win0_0.index t (2 : Fin 3) * 2 + 1 * d.val = d.val; omega

/-- The block of the mask at point `t`, read in the array. -/
theorem mblk_apply (c : Dev nD) (t : Fin cfg0.N) (r : Fin 64) (q : Fin 128)
    (hb : 64 * (t.val / 32) + r.val < 128) (hp : 128 * (t.val % 32) + q.val < 4096) :
    mblk m c t (ix2 r q) = marr m c (ix2 ⟨64 * (t.val / 32) + r.val, hb⟩ ⟨128 * (t.val % 32) + q.val, hp⟩) := by
  obtain ⟨-, -, -, e0, e1, -⟩ := where_blocks t
  show V m c main_arg1 (((cfg0.win 1).blk t).view.emb (ix2 r q)) = V m c main_arg1 _
  refine congrArg (V m c main_arg1) (funext fun a => Fin.ext ?_)
  match a with
  | ⟨0, _⟩ => show win0_1.index t (0 : Fin 2) * 64 + 1 * r.val = 64 * (t.val / 32) + r.val; omega
  | ⟨1, _⟩ => show win0_1.index t (1 : Fin 2) * 128 + 1 * q.val = 128 * (t.val % 32) + q.val; omega

/-- The table of centres is staged whole. -/
theorem cblk_apply (c : Dev nD) (t : Fin cfg0.N) (k : Fin 64) (d : Fin 2) : cblk m c t (ix2 k d) = carr m c (ix2 k d) := by
  obtain ⟨-, -, -, -, -, e0, e1, -⟩ := where_blocks t
  show V m c main_arg2 (((cfg0.win 2).blk t).view.emb (ix2 k d)) = V m c main_arg2 _
  refine congrArg (V m c main_arg2) (funext fun a => Fin.ext ?_)
  match a with
  | ⟨0, _⟩ => show win0_2.index t (0 : Fin 2) * 64 + 1 * k.val = k.val; omega
  | ⟨1, _⟩ => show win0_2.index t (1 : Fin 2) * 2 + 1 * d.val = d.val; omega

/-- The table of sharpnesses is staged whole. -/
theorem sblk_apply (c : Dev nD) (t : Fin cfg0.N) (k : Fin 64) (d : Fin 2) : sblk m c t (ix2 k d) = sarr m c (ix2 k d) := by
  obtain ⟨-, -, -, -, -, -, -, e0, e1, -⟩ := where_blocks t
  show V m c main_arg3 (((cfg0.win 3).blk t).view.emb (ix2 k d)) = V m c main_arg3 _
  refine congrArg (V m c main_arg3) (funext fun a => Fin.ext ?_)
  match a with
  | ⟨0, _⟩ => show win0_3.index t (0 : Fin 2) * 64 + 1 * k.val = k.val; omega
  | ⟨1, _⟩ => show win0_3.index t (1 : Fin 2) * 2 + 1 * d.val = d.val; omega

/-! ## One point's contribution -/

/-- The weight of point `p` of sample `b` for bin `k`, from the arrays. -/
def W (c : Dev nD) (b : Fin 128) (k : Fin 64) (p : Fin 4096) : EReal :=
  wt (carr m c (ix2 k 0)) (sarr m c (ix2 k 0)) (xarr m c (ix3 b p 0)) (carr m c (ix2 k 1)) (sarr m c (ix2 k 1))
    (xarr m c (ix3 b p 1)) (marr m c (ix2 b p))

/-- What grid point `n` adds at sample `r` of its block and bin `k`: the 128 weights of its points (nothing past
    the grid). -/
def contrib (c : Dev nD) (n : ℕ) (r k : Fin 64) : EReal :=
  if h : n < 64 then ∑ q : Fin 128, W m c ⟨64 * (n / 32) + r.val, by have := r.isLt; omega⟩ k
      ⟨128 * (n % 32) + q.val, by have := q.isLt; omega⟩
  else 0

/-- The body's step at point `t`, read at `(r, k)`: what it was handed there plus the point's contribution. -/
theorem step_at (c : Dev nD) (t : Fin cfg0.N) (acc : Vec Ideal S64x64 .f32) (r k : Fin 64) :
    k0_pay1 (F := Ideal) (mblk m c t) (k0_pay3 (xblk m c t) (cblk m c t) (sblk m c t)) acc (ix2 r k)
      = acc (ix2 r k) + contrib m c t.val r k := by
  have hN : t.val < 64 := lt_of_lt_of_eq t.isLt (show cfg0.N = 64 from N_0)
  rw [step_apply]
  refine congrArg (acc (ix2 r k) + ·) ?_
  unfold contrib
  rw [dif_pos hN]
  refine Finset.sum_congr rfl fun q _ => ?_
  unfold W
  rw [cblk_apply, cblk_apply, sblk_apply, sblk_apply,
    xblk_apply m c t r q 0 (by have := r.isLt; omega) (by have := q.isLt; omega),
    xblk_apply m c t r q 1 (by have := r.isLt; omega) (by have := q.isLt; omega),
    mblk_apply m c t r q (by have := r.isLt; omega) (by have := q.isLt; omega)]

/-! ## The running total after each point -/

/-- At a run's first point the total is reset, then stepped: what was there before does not matter. -/
theorem total_at_first (c : Dev nD) (n : ℕ) (hb : n < cfg0.N) (h0 : n % 32 = 0) (acc : Vec Ideal S64x64 .f32) (r k : Fin 64) :
    Value.scAt0_0 m c n hb acc (ix2 r k) = 0 + contrib m c n r k := by
  unfold Value.scAt0_0
  rw [dif_pos h0]
  refine (congrFun (total_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (ix2 r k)).trans ?_
  refine (step_at m c ⟨n, hb⟩ (k0_pay2 (F := Ideal)) r k).trans ?_
  rw [reset_apply]

/-- At every other point it is stepped from what the point before left. -/
theorem total_at_later (c : Dev nD) (n : ℕ) (hb : n < cfg0.N) (h0 : ¬n % 32 = 0) (acc : Vec Ideal S64x64 .f32) (r k : Fin 64) :
    Value.scAt0_0 m c n hb acc (ix2 r k) = acc (ix2 r k) + contrib m c n r k := by
  unfold Value.scAt0_0
  rw [dif_neg h0]
  refine (congrFun (total_later (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 r k)).trans ?_
  exact step_at m c ⟨n, hb⟩ acc r k

/-- The two rules above at any index of the block. -/
theorem total_first_idx (c : Dev nD) (n : ℕ) (hb : n < cfg0.N) (h0 : n % 32 = 0) (acc : Vec Ideal S64x64 .f32) (i : S64x64.Idx) :
    Value.scAt0_0 m c n hb acc i = (0 : EReal) + contrib m c n (i 0) (i 1) := by
  obtain ⟨r, k, rfl⟩ : ∃ (r k : Fin 64), i = ix2 r k := ⟨i 0, i 1, eq_ix2 i⟩
  exact total_at_first m c n hb h0 acc r k

theorem total_later_idx (c : Dev nD) (n : ℕ) (hb : n < cfg0.N) (h0 : ¬n % 32 = 0) (acc : Vec Ideal S64x64 .f32) (i : S64x64.Idx) :
    Value.scAt0_0 m c n hb acc i = acc i + contrib m c n (i 0) (i 1) := by
  obtain ⟨r, k, rfl⟩ : ∃ (r k : Fin 64), i = ix2 r k := ⟨i 0, i 1, eq_ix2 i⟩
  exact total_at_later m c n hb h0 acc r k

/-- THE RUNNING TOTAL after point `t`: zero plus the contributions of the points of its run up to `t`. -/
theorem total_after (c : Dev nD) (t : Fin cfg0.N) (r k : Fin 64) :
    (outsAt0 m c t.val t.isLt).2 (ix2 r k)
      = 0 + ∑ s ∈ Finset.range (t.val % 32 + 1), contrib m c (32 * (t.val / 32) + s) r k := by
  have hN : t.val < 64 := lt_of_lt_of_eq t.isLt (show cfg0.N = 64 from N_0)
  rw [Value.soutsAt0_0_eq m c t]
  exact Pipeline.accAt_add_apply (β := EReal)
    (fun n h => Value.scAt0_0 m c n h (VS0_0.read (Elt Ideal) VS0_0.junk)) (Value.scAt0_0 m c)
    (fun _ => 0) (fun n i => contrib m c n (i 0) (i 1)) (32 * (t.val / 32)) 31
    (fun h i => total_first_idx m c (32 * (t.val / 32)) h (by omega) (VS0_0.read (Elt Ideal) VS0_0.junk) i)
    (fun n h acc i h1 h2 => total_later_idx m c n h (by omega) acc i)
    (t.val % 32) (by omega) _ (ix2 r k)

/-- The output block holds a copy of the running total after every point. -/
theorem block_is_total (c : Dev nD) (t : Fin cfg0.N) : (outsAt0 m c t.val t.isLt).1 = (outsAt0 m c t.val t.isLt).2 := by
  by_cases h0 : t.val % 32 = 0
  · rw [outsAt0_A m c t h0]
    dsimp only
    exact (block_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
      (total_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).symm
  · rw [outsAt0_B m c t h0]
    dsimp only
    exact (block_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _).trans
      (total_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _).symm

/-! ## The last point of a run, the written blocks, the array -/

/-- The weight does not care how an index is spelled. -/
theorem W_mk_congr (c : Dev nD) (k : Fin 64) (b b' p p' : ℕ) (hb : b < 128) (hb' : b' < 128) (hp : p < 4096) (hp' : p' < 4096)
    (eb : b = b') (ep : p = p') : W m c ⟨b, hb⟩ k ⟨p, hp⟩ = W m c ⟨b', hb'⟩ k ⟨p', hp'⟩ := by
  subst eb; subst ep; rfl

/-- AT THE LAST POINT OF A RUN the running total is the sum of all 4096 weights of its sample and bin. -/
theorem total_at_last (c : Dev nD) (t : Fin cfg0.N) (h31 : t.val % 32 = 31) (r k : Fin 64)
    (hb : 64 * (t.val / 32) + r.val < 128) :
    (outsAt0 m c t.val t.isLt).2 (ix2 r k) = (G (xarr m c) (marr m c) (carr m c) (sarr m c)) (ix2 ⟨64 * (t.val / 32) + r.val, hb⟩ k) := by
  have hN : t.val < 64 := lt_of_lt_of_eq t.isLt (show cfg0.N = 64 from N_0)
  have e32 : t.val % 32 + 1 = 32 := by omega
  rw [total_after m c t r k, e32, zero_add, Finset.sum_range]
  refine Eq.trans ?_ ((sum_runs fun p => W m c ⟨64 * (t.val / 32) + r.val, hb⟩ k p).trans rfl)
  refine Finset.sum_congr rfl fun s _ => ?_
  have hs : s.val < 32 := s.isLt
  unfold contrib
  rw [dif_pos (by omega)]
  refine Finset.sum_congr rfl fun q _ => ?_
  have hq : q.val < 128 := q.isLt
  exact W_mk_congr m c k _ _ _ _ _ _ _ _ (by omega) (by omega)

/-- The same, at any index of the 64-by-64 block. -/
theorem total_at_last_idx (c : Dev nD) (t : Fin cfg0.N) (h31 : t.val % 32 = 31) (y : S64x64.Idx)
    (hb : 64 * (t.val / 32) + (y 0).val < 128) :
    (outsAt0 m c t.val t.isLt).2 y = (G (xarr m c) (marr m c) (carr m c) (sarr m c)) (ix2 ⟨64 * (t.val / 32) + (y 0).val, hb⟩ ⟨(y 1).val, idx2_lt1 y⟩) := by
  obtain ⟨r, k, rfl⟩ : ∃ (r k : Fin 64), y = ix2 r k := ⟨y 0, y 1, eq_ix2 y⟩
  exact total_at_last m c t h31 r k hb

/-- WHAT A WRITE-BACK WRITES: the block of the sum of the weights that its rows name. -/
theorem flushed_eq (c : Dev nD) (t : Fin cfg0.N) (hf : (cfg0.win 4).flush t = true) :
    (dats m 0 c).flushed 4 t = ((cfg0.win 4).blk t).view.read (Elt Ideal) (G (xarr m c) (marr m c) (carr m c) (sarr m c)) := by
  have h31 : t.val % 32 = 31 := (flush0_4 t).mp hf
  have hN : t.val < 64 := lt_of_lt_of_eq t.isLt (show cfg0.N = 64 from N_0)
  obtain ⟨-, -, -, -, -, -, -, -, -, e0, e1⟩ := where_blocks t
  rw [Value.flushed4, block_is_total]
  funext y
  have hy0 : (y 0).val < 64 := (y 0).isLt
  have hy1 : (y 1).val < 64 := (y 1).isLt
  show (outsAt0 m c t.val t.isLt).2 y = (G (xarr m c) (marr m c) (carr m c) (sarr m c)) (((cfg0.win 4).blk t).view.emb y)
  refine (total_at_last_idx m c t h31 y (by omega)).trans ?_
  refine congrArg (G (xarr m c) (marr m c) (carr m c) (sarr m c)) (funext fun a => Fin.ext ?_)
  match a with
  | ⟨0, _⟩ => show 64 * (t.val / 32) + (y 0).val = win0_4.index t (0 : Fin 2) * 64 + 1 * (y 0).val; omega
  | ⟨1, _⟩ => show (y 1).val = win0_4.index t (1 : Fin 2) * 64 + 1 * (y 1).val; omega

/-- An index of the result array lies in point `t`'s block iff each coordinate is in the block's range. -/
theorem mem_block (t : Fin cfg0.N) (i : S128x64.Idx) :
    i ∈ ((cfg0.win 4).blk t).view.set ↔ ∀ a : Fin 2, win0_4.index t a * S64x64.size a ≤ (i a).val
      ∧ (i a).val < win0_4.index t a * S64x64.size a + S64x64.size a := by
  show i ∈ ((View.whole main_v0).slice (win0_4.rect t)).set ↔ _
  rw [View.set_slice_whole, Rect.mem_set_unit]
  exact Iff.rfl

/-- Every row of the result lies in the block written at the last point of its half of the samples. -/
theorem covered (i : S128x64.Idx) :
    ∃ t : Fin cfg0.N, (cfg0.win 4).flush t = true ∧ i ∈ ((cfg0.win 4).blk t).view.set := by
  have hi0 : (i 0).val < 128 := idx2_lt0 i
  have hi1 : (i 1).val < 64 := idx2_lt1 i
  have hN : cfg0.N = 64 := N_0
  have hlt : 32 * ((i 0).val / 64) + 31 < cfg0.N := by rw [hN]; omega
  obtain ⟨-, -, -, -, -, -, -, -, -, e0, e1⟩ := where_blocks ⟨32 * ((i 0).val / 64) + 31, hlt⟩
  have e0' : win0_4.index ⟨32 * ((i 0).val / 64) + 31, hlt⟩ (0 : Fin 2) = (32 * ((i 0).val / 64) + 31) / 32 := e0
  refine ⟨⟨32 * ((i 0).val / 64) + 31, hlt⟩, (flush0_4 _).mpr (by show (32 * ((i 0).val / 64) + 31) % 32 = 31; omega), ?_⟩
  rw [mem_block]
  intro a
  match a with
  | ⟨0, _⟩ =>
    show win0_4.index ⟨32 * ((i 0).val / 64) + 31, hlt⟩ (0 : Fin 2) * 64 ≤ (i 0).val
      ∧ (i 0).val < win0_4.index ⟨32 * ((i 0).val / 64) + 31, hlt⟩ (0 : Fin 2) * 64 + 64
    rw [e0']; omega
  | ⟨1, _⟩ =>
    show win0_4.index ⟨32 * ((i 0).val / 64) + 31, hlt⟩ (1 : Fin 2) * 64 ≤ (i 1).val
      ∧ (i 1).val < win0_4.index ⟨32 * ((i 0).val / 64) + 31, hlt⟩ (1 : Fin 2) * 64 + 64
    rw [e1]; omega

/-- THE RESULT ARRAY after the run is the sum of the weights, everywhere. -/
theorem final (c : Dev nD) : (dats m 0 c).arrAt 4 cfg0.N = (G (xarr m c) (marr m c) (carr m c) (sarr m c)) :=
  (dats m 0 c).arrAt_eq_of_cover 4 (G (xarr m c) (marr m c) (carr m c) (sarr m c)) (flushed_eq m c) covered

/-- The kernel's run, read: the result at the sum of the weights of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Bins

end
-- ==== Proof.RefValue.lean ====
/-
  The reference computes the sum of the weights.

  Read one operation at a time, the reference's result at sample `b` and bin `k` is zero plus the sum over the
  4096 points `p` of `exp (-(0 + ∑ over the two coordinates d of (c k d - x b p d)² · (s k d)²)) · mask b p`:
  every broadcast only repeats an entry along the axes it adds, so each operand is read at the entry its
  coordinates name.  That is the weight, spelled with a negation and a two-term sum.
-/
import proofs.«121354_j6545530159284_1_alg».proof.Proof.Gen.ReferenceIdeal.Read
import proofs.«121354_j6545530159284_1_alg».proof.Proof.Weight
import Idealize.ShloMosaic.Lib.ValueIdx
import Idealize.ShloMosaic.PureOps.Ideal.Laws

noncomputable section

namespace Cert.ReferenceIdeal.Bins

open Cert.ReferenceIdeal Cert.ReferenceIdeal.Read Idealize.ShloMosaic Idealize.ShloMosaic.ValueIdx Cert.SoftHist

/-- One coordinate's term of the reference's inner sum, at sample `b`, bin `k`, point `p`, coordinate `d`. -/
theorem coordinate_term (x0 : FVec Ideal S128x4096x2 .f32) (x2 x3 : FVec Ideal S64x2 .f32)
    (b : Fin 128) (k : Fin 64) (p : Fin 4096) (d : Fin 2) :
    val_main_v9 (F := Ideal) x0 x2 x3 (idx_main_v10 (idx_main_v16 (ix2 b k) p) d)
      = (x2 (ix2 k d) - x0 (ix3 b p d)) * (x2 (ix2 k d) - x0 (ix3 b p d)) * (x3 (ix2 k d) * x3 (ix2 k d)) := by
  have eC : idx_main_v0 (idx_main_v2 (idx_main_v10 (idx_main_v16 (ix2 b k) p) d)) = ix2 k d :=
    funext fun a => Fin.ext (by match a with | ⟨0, _⟩ => rfl | ⟨1, _⟩ => rfl)
  have eS : idx_main_v7 (idx_main_v8 (idx_main_v10 (idx_main_v16 (ix2 b k) p) d)) = ix2 k d :=
    funext fun a => Fin.ext (by match a with | ⟨0, _⟩ => rfl | ⟨1, _⟩ => rfl)
  have eX : idx_main_v1 (idx_main_v3 (idx_main_v10 (idx_main_v16 (ix2 b k) p) d)) = ix3 b p d :=
    funext fun a => Fin.ext (by match a with | ⟨0, _⟩ => rfl | ⟨1, _⟩ => rfl | ⟨2, _⟩ => rfl)
  rw [val_main_v9_apply, val_main_v5_apply, val_main_v4_apply, val_main_v2_apply, val_main_v0_apply, val_main_v3_apply,
    val_main_v1_apply, val_main_v8_apply, val_main_v7_apply, val_main_v6_apply, eC, eS, eX]
  rfl

/-- THE REFERENCE IS THE SUM OF THE WEIGHTS. -/
theorem reference_eq (x0 : FVec Ideal S128x4096x2 .f32) (x1 : FVec Ideal S128x4096 .f32) (x2 x3 : FVec Ideal S64x2 .f32) :
    val_main_v16 (F := Ideal) x0 x1 x2 x3 = G x0 x1 x2 x3 := by
  funext i
  obtain ⟨b, k, rfl⟩ : ∃ (b : Fin 128) (k : Fin 64), i = ix2 b k := ⟨i 0, i 1, eq_ix2 i⟩
  rw [val_main_v16_apply]
  rw [val_main_cst_0_apply]
  show Ideal.ofBits .f32 0x00000000#32 + _ = _
  rw [Ideal.ofBits_zero_f32, zero_add]
  unfold G
  refine Finset.sum_congr rfl fun p _ => ?_
  have eM : idx_main_v13 (idx_main_v14 (idx_main_v16 (ix2 b k) p)) = ix2 b p :=
    funext fun a => Fin.ext (by match a with | ⟨0, _⟩ => rfl | ⟨1, _⟩ => rfl)
  rw [val_main_v15_apply, val_main_v12_apply, val_main_v11_apply, val_main_v10_apply, val_main_v14_apply,
    val_main_v13_apply, eM]
  show Ideal.exp (-(Ideal.ofBits .f32 0x00000000#32 + ∑ d : Fin 2, val_main_v9 (F := Ideal) x0 x2 x3 (idx_main_v10 (idx_main_v16 (ix2 b k) p) d)))
      * x1 (ix2 b p) = _
  rw [Ideal.ofBits_zero_f32]
  exact wt_of_neg_sum _ _ _ _ _ _ _ _ (coordinate_term x0 x2 x3 b k p 0) (coordinate_term x0 x2 x3 b k p 1)

end Cert.ReferenceIdeal.Bins

end
-- ==== Proof.lean ====
/-
  A soft histogram of point clouds: the kernel and its reference agree on the extended reals.

  For each of 128 samples and 64 bins both programs compute the sum, over the sample's 4096 points `p`, of
      exp (-( (c k 0 - x b p 0)² · (s k 0)² + (c k 1 - x b p 1)² · (s k 1)² )) · mask b p.
  The reference forms the whole 128 × 64 × 4096 table of weights and sums its last axis.  The kernel walks a grid of
  2 × 32 points, each holding 64 samples by 128 points; it keeps a running total per sample and bin, reset at the
  first of every 32 points and grown by the block's 128 weights at each, and writes the total back after the 32nd.
  Addition on the extended reals is commutative and associative, so 32 runs of 128 weights sum to the 4096 weights
  whatever the entries are; the exponent is written `0 - ((0 + d₀) + d₁)` on one side and `-(0 + (d₀ + d₁))` on
  the other, which are the same number.  Nothing here needs the inputs to be finite.

  The three programs run and leave their arguments alone; the kernel read over the extended reals is the kernel's
  own text (no operation was rewritten), so that claim is trivial.
-/
import proofs.«121354_j6545530159284_1_alg».proof.Defs
import proofs.«121354_j6545530159284_1_alg».proof.Proof.Gen.Kernel
import proofs.«121354_j6545530159284_1_alg».proof.Proof.Gen.Kernel.Skeleton
import proofs.«121354_j6545530159284_1_alg».proof.Proof.Gen.Kernel.Launch
import proofs.«121354_j6545530159284_1_alg».proof.Proof.Gen.Kernel.Points
import proofs.«121354_j6545530159284_1_alg».proof.Proof.Gen.Kernel.Frame
import proofs.«121354_j6545530159284_1_alg».proof.Proof.Gen.KernelIdeal
import proofs.«121354_j6545530159284_1_alg».proof.Proof.Gen.KernelIdeal.Skeleton
import proofs.«121354_j6545530159284_1_alg».proof.Proof.Gen.KernelIdeal.Launch
import proofs.«121354_j6545530159284_1_alg».proof.Proof.Gen.KernelIdeal.Points
import proofs.«121354_j6545530159284_1_alg».proof.Proof.Gen.KernelIdeal.Frame
import proofs.«121354_j6545530159284_1_alg».proof.Proof.Gen.ReferenceIdeal
import proofs.«121354_j6545530159284_1_alg».proof.Proof.Gen.KernelIdeal.Value
import proofs.«121354_j6545530159284_1_alg».proof.Proof.Gen.ReferenceIdeal.Run
import proofs.«121354_j6545530159284_1_alg».proof.Proof.Gen.ReferenceIdeal.Read
import proofs.«121354_j6545530159284_1_alg».proof.Proof.Gen.Pre_finite_inputs
import proofs.«121354_j6545530159284_1_alg».proof.Proof.Weight
import proofs.«121354_j6545530159284_1_alg».proof.Proof.Fold
import proofs.«121354_j6545530159284_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- So does the reference: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end at the sum of the weights of the arguments, and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Bins.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Bins.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
